-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) (main_arg2 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v24 : BitVec 1 := Scalar.cmpi .eq arg2 c3_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  natLt_1_32 : 1 < 32
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x4096.size a
  hwx0_3 : ∀ i : grid0.Coords, EltTy.bits .f32 = 32 ∨ (Rect.block (s := S4096x4096) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .i1⟩
  | .hbm, ⟨20, _⟩ => ⟨S4096x4096, .f32⟩
  | .hbm, ⟨21, _⟩ => ⟨S4096x4096, .f32⟩
  | .hbm, ⟨22, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Step.lean ====
/-
  What one grid step leaves behind, as pure functions of what it found.

  The kernel body at a grid point loads its three input blocks, adds one block product to the running sum it keeps
  in a scratch buffer, and stores the sum back; at the first step of a run along the contraction axis it first
  resets the scratch to zero, and at the last step it also stores the thresholded sum into the output block. Each
  buffer's contents after the step are read off the stores the step made:

    first step   : scratch = update(x, pr, nr, zero)
    middle steps : scratch = update(x, pr, nr, scratch before)
    last step    : scratch = update(x, pr, nr, scratch before), output = threshold(scratch after)

  where `update` and `threshold` are the body's arithmetic (`k0_pay2`, `k0_pay3`) and `zero` the reset's block
  (`k0_pay1`). All of it holds at any float instance.
-/
import proofs.«163154_j68719476736056_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Step

open Cert.KernelIdeal Cert.KernelIdeal.Gen

variable {F : FTy → Type} [FloatOps F]

theorem hz : (![0, 0] : Fin 2 → Nat) = fun _ => 0 := funext fun a => by fin_cases a <;> rfl

/-- First step of a run: the scratch is reset to the zero block, read back, and updated; the update covers the reset. -/
theorem acc_first (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S1024x512 .f32) (harg7 : arg7.IsWhole) (hc0 : cond0_0 i) (hc1 : ¬cond0_1 i)
    (x0 : Vec F S1024x1024 .f32) (x1 : Vec F S512x1024 .f32) (x2 : Vec F S512x1024 .f32) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x512) hz, View.readCov_unit_zero (S := S1024x512) _ hz]
  simp only [View.readAt_eq_ld, harg3.read_unread, harg4.read_unread, harg5.read_unread, View.ld_unit_zero (S := S1024x1024) hz, View.ld_unit_zero (S := S512x1024) hz]

/-- A middle step: the scratch is updated from what the step before left. -/
theorem acc_next (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : ¬cond0_1 i)
    (x0 : Vec F S1024x1024 .f32) (x1 : Vec F S512x1024 .f32) (x2 : Vec F S512x1024 .f32) (xs0 : Vec F S1024x512 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S512x1024) hz, View.ld_unit_zero (S := S1024x512) hz]

/-- The last step updates the scratch the same way, -/
theorem acc_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S512x1024 .f32) (x2 : Vec F S512x1024 .f32) (xs0 : Vec F S1024x512 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S512x1024) hz, View.ld_unit_zero (S := S1024x512) hz]

/-- and stores the threshold of the updated scratch, read back, into the output block. -/
theorem out_last (c : Dev nD) (i : grid0.Coords) (arg3 : Memref sig .tc .vmem S1024x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S1024x512 .f32) (harg6 : arg6.IsWhole) (arg7 : Memref sig .tc .vmem S1024x512 .f32) (harg7 : arg7.IsWhole) (hc0 : ¬cond0_0 i) (hc1 : cond0_1 i)
    (x0 : Vec F S1024x1024 .f32) (x1 : Vec F S512x1024 .f32) (x2 : Vec F S512x1024 .f32) (xs0 : Vec F S1024x512 .f32) :
    out0_C_3 c i arg3 harg3 arg4 harg4 arg5 harg5 arg6 harg6 arg7 harg7 hc0 hc1 x0 x1 x2 xs0 = k0_pay3 (k0_pay2 x0 x1 x2 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x512) _ hz, View.readAt_eq_ld, harg3.read_unread, harg4.read_unread, harg5.read_unread, harg7.read_unread, View.ld_unit_zero (S := S1024x1024) hz, View.ld_unit_zero (S := S512x1024) hz, View.ld_unit_zero (S := S1024x512) hz]

end Cert.KernelIdeal.Step

end
-- ==== Proof.LibTransposedRhsDot.lean ====
/-
  A two-dimensional contraction whose right operand is contracted on its LAST axis, read at one element over the
  extended reals.

  For the dimension numbers of an [M, K] by [N, K] product (the left operand's axis 1 contracted against the right
  operand's axis 1, no batch axis), entry (p, q) of the product is the sum over k of lhs (p, k) · rhs (q, k): the
  product of the left matrix with the TRANSPOSE of the right one. This holds of a kernel's matrix product into a zero
  accumulator and of the host's dot_general alike, whatever the precision attribute: at the extended reals both are the
  textbook contraction. Generic in the three extents.
-/
import Idealize.ShloMosaic.PureOps.Ideal.Laws
import Idealize.ShloMosaic.Lib.ValueIdx

noncomputable section

namespace Cert.Lib.TransposedRhsDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.transposedRhs M K N).contr.Idx) :
    ((DotDims.transposedRhs M K N).lhsIdx i r 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- Axis 1 of the left operand is the contracted one: it reads the contraction position. -/
theorem lhs_axis1 (i : (⟨2, ![M, N]⟩ : Shape).Idx) (r : (DotDims.transposedRhs M K N).contr.Idx) :
    ((DotDims.transposedRhs M K N).lhsIdx i r 1).val = (r ⟨0, Nat.one_pos⟩).val :=
  (DotDims.transposedRhs M K N).lhsIdx_val_of_single rfl i r

/-- Axis 0 of the right operand is free: it reads the output's COLUMN coordinate. -/
theorem rhs_axis0 (i : (⟨2, ![M, N]⟩ : Shape).Idx) (r : (DotDims.transposedRhs M K N).contr.Idx) :
    ((DotDims.transposedRhs M K N).rhsIdx i r 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- Axis 1 of the right operand is the contracted one. -/
theorem rhs_axis1 (i : (⟨2, ![M, N]⟩ : Shape).Idx) (r : (DotDims.transposedRhs M K N).contr.Idx) :
    ((DotDims.transposedRhs M K N).rhsIdx i r 1).val = (r ⟨0, Nat.one_pos⟩).val :=
  (DotDims.transposedRhs M K N).rhsIdx_val_of_single rfl i r

/-- The contraction's sum over its one-axis index shape, re-indexed by that axis' coordinate: the sum over
    `k : Fin K` of lhs (p, k) · rhs (q, k). -/
theorem sum_eq (lhs : (⟨2, ![M, K]⟩ : Shape).Idx → EReal) (rhs : (⟨2, ![N, K]⟩ : Shape).Idx → EReal)
    (p : Fin M) (q : Fin N) :
    (∑ r : (DotDims.transposedRhs M K N).contr.Idx,
        lhs ((DotDims.transposedRhs M K N).lhsIdx (ix2 p q) r) * rhs ((DotDims.transposedRhs M K N).rhsIdx (ix2 p q) r))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_axis0 M K N _ _
      | ⟨1, _⟩ => exact (rhs_axis1 M K N _ _).trans hk)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (p : Fin M) (q : Fin N) :
    FloatOps.dotGeneral (DotDims.transposedRhs M K N) prec sched lhs rhs (ix2 p q)
      = ∑ k : Fin K, lhs (ix2 p k) * rhs (ix2 q k) := by
  rw [Ideal.dotGeneral_apply]
  exact sum_eq M K N lhs rhs p q

end Cert.Lib.TransposedRhsDot

end
-- ==== Proof.TernaryThreshold.lean ====
/-
  The mathematics of a ternary-weight product followed by a threshold, over the extended reals.

  Two weight arrays `pr`, `nr` give a weight in {-1, 0, 1}: the indicator of `pr > 0` minus the indicator of
  `nr > 0`. Entry (t, o) of the product contracts row t of `x` against row o of the weights over the 4096
  positions of their common last axis, and the result is the indicator of that entry being positive.

  Entries are addressed by natural numbers (an array reads as zero outside its extent), so that a block of an array
  is addressed by plain arithmetic; the contraction is a sum over an initial segment of the positions, so that a
  running sum over consecutive segments of 1024 positions is the same object one step later.
-/
import Idealize.ShloMosaic.PureOps.Ideal.Laws
import Idealize.ShloMosaic.Lib.ValueIdx
import Mathlib.Data.EReal.Operations
import Mathlib.Algebra.BigOperators.Fin

noncomputable section

namespace Cert.TernaryThreshold

open Idealize.ShloMosaic Idealize.ShloMosaic.ValueIdx

/-- A 4096 x 4096 array of extended reals. -/
abbrev Mat : Type := (⟨2, ![4096, 4096]⟩ : Shape).Idx → EReal

/-- Entry (r, c) of an array, zero outside its extent. -/
def at2 (a : Mat) (r c : ℕ) : EReal := if h : r < 4096 ∧ c < 4096 then a (ix2 ⟨r, h.1⟩ ⟨c, h.2⟩) else 0

theorem at2_of_lt (a : Mat) {r c : ℕ} (hr : r < 4096) (hc : c < 4096) : at2 a r c = a (ix2 ⟨r, hr⟩ ⟨c, hc⟩) :=
  dif_pos ⟨hr, hc⟩

theorem at2_fin (a : Mat) (r c : Fin 4096) : at2 a r.val c.val = a (ix2 r c) := at2_of_lt a r.isLt c.isLt

/-- The indicator of `z > 0`: the one-bit word of the comparison against the zero word, read as a number. -/
def pos (z : EReal) : EReal := (((Ideal.cmp .ogt z (Ideal.ofBits .f32 0x00000000#32)).toNat : ℝ) : EReal)

/-- The weight at (o, d): +1 where only `pr` is positive, -1 where only `nr` is, 0 otherwise. -/
def tern (pr nr : Mat) (o d : ℕ) : EReal := pos (at2 pr o d) - pos (at2 nr o d)

/-- One product of the contraction. -/
def term (x pr nr : Mat) (t o d : ℕ) : EReal := at2 x t d * tern pr nr o d

/-- The contraction over the first `n` positions. -/
def dotUpTo (x pr nr : Mat) (t o n : ℕ) : EReal := ∑ d ∈ Finset.range n, term x pr nr t o d

/-- The thresholded product. -/
def out (x pr nr : Mat) : Mat := fun i => pos (dotUpTo x pr nr (i 0).val (i 1).val 4096)

theorem dotUpTo_zero (x pr nr : Mat) (t o : ℕ) : dotUpTo x pr nr t o 0 = 0 := Finset.sum_range_zero _

/-- The contraction over one more segment of 1024 positions: the sum so far plus the segment's own sum. Addition of
    extended reals is commutative and associative, so no finiteness is needed. -/
theorem dotUpTo_segment (x pr nr : Mat) (t o k : ℕ) :
    dotUpTo x pr nr t o (1024 * (k + 1)) = dotUpTo x pr nr t o (1024 * k) + ∑ d : Fin 1024, term x pr nr t o (1024 * k + d.val) := by
  unfold dotUpTo
  rw [Nat.mul_succ, Finset.sum_range_add]
  exact congrArg _ (Finset.sum_range fun d => term x pr nr t o (1024 * k + d))

/-- The whole contraction, as the sum over the last axis' coordinate. -/
theorem dotUpTo_full (x pr nr : Mat) (t o : Fin 4096) :
    dotUpTo x pr nr t.val o.val 4096 = ∑ d : Fin 4096, x (ix2 t d) * (pos (pr (ix2 o d)) - pos (nr (ix2 o d))) := by
  unfold dotUpTo
  rw [Finset.sum_range]
  refine Finset.sum_congr rfl fun d _ => ?_
  unfold term tern
  rw [at2_fin, at2_fin, at2_fin]

/-! ## Finite entries -/

/-- The indicator is a real number. -/
theorem pos_real (z : EReal) : ∃ r : ℝ, pos z = (r : EReal) := ⟨_, rfl⟩

/-- A finite sum of real numbers read in the extended reals is the real sum. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An array all of whose entries are real numbers. -/
def Real (a : Mat) : Prop := ∀ i, ∃ r : ℝ, a i = (r : EReal)

theorem at2_real {a : Mat} (ha : Real a) (r c : ℕ) : ∃ v : ℝ, at2 a r c = (v : EReal) := by
  unfold at2
  split
  · exact ha _
  · exact ⟨0, rfl⟩

/-- Every product of the contraction is a real number when `x` is real (the weights always are). -/
theorem term_real {x : Mat} (hx : Real x) (pr nr : Mat) (t o d : ℕ) : ∃ v : ℝ, term x pr nr t o d = (v : EReal) := by
  obtain ⟨a, ha⟩ := at2_real hx t d
  obtain ⟨p, hp⟩ := pos_real (at2 pr o d)
  obtain ⟨q, hq⟩ := pos_real (at2 nr o d)
  exact ⟨a * (p - q), by unfold term tern; rw [ha, hp, hq, ← EReal.coe_sub, ← EReal.coe_mul]⟩

/-- So every partial contraction is a real number. -/
theorem dotUpTo_real {x : Mat} (hx : Real x) (pr nr : Mat) (t o n : ℕ) : ∃ v : ℝ, dotUpTo x pr nr t o n = (v : EReal) := by
  choose f hf using fun d => term_real hx pr nr t o d
  exact ⟨∑ d ∈ Finset.range n, f d, by unfold dotUpTo; simp only [hf]; exact sum_coe _ _⟩

/-- Adding and then subtracting a real number changes nothing. -/
theorem add_sub_real (a : EReal) {w : EReal} (hw : ∃ r : ℝ, w = (r : EReal)) : a + w - w = a := by
  obtain ⟨r, rfl⟩ := hw
  exact EReal.add_sub_cancel_right

end Cert.TernaryThreshold

end
-- ==== Proof.StepArith.lean ====
/-
  The arithmetic of one grid step, read at one entry over the extended reals.

  The update adds to the running sum at (p, q) the block product's entry: the sum over the 1024 positions d of the
  block's contraction axis of x(p, d) times the ternary weight at (q, d), the weight being the indicator of the
  first weight block's entry minus the indicator of the second's. Narrowing to bfloat16 is the identity over the
  extended reals, and the compare's bit, widened to a word and converted as a signed integer, is the bit's value.
  The reset's block is zero everywhere, and the threshold is the indicator entry by entry.
-/
import proofs.«163154_j68719476736056_1_alg».proof.Proof.Gen.KernelIdeal.Skeleton
import proofs.«163154_j68719476736056_1_alg».proof.Proof.LibTransposedRhsDot
import proofs.«163154_j68719476736056_1_alg».proof.Proof.TernaryThreshold
import Idealize.ShloMosaic.Lib.Pipeline.Value
import Idealize.ShloMosaic.Lib.KernelVsHost

noncomputable section

open Idealize.ShloMosaic Idealize.ShloMosaic.ValueIdx

namespace Cert.KernelIdeal.Arith

open Cert.KernelIdeal Cert.KernelIdeal.Gen Cert.TernaryThreshold

/-- The indicator as the kernel spells it, at one entry of a vector of any shape. -/
theorem indicator_apply {s : Shape} (v : FVec Ideal s .f32) (h : 1 < 32) (j : s.Idx) :
    (sitofp .f32 (extui 32 (cmpf .ogt v (broadcast s (Scalar.ofBits .f32 0x00000000#32))) h) : FVec Ideal s .f32) j = pos (v j) := by
  rw [sitofp_extui_eq_uitofp]
  rfl

/-- The reset's block is zero. -/
theorem zero_apply (j : S1024x512.Idx) : k0_pay1 (F := Ideal) j = 0 := by
  unfold k0_pay1
  rw [shapeCast_self]
  exact Ideal.ofBits_zero_f32

/-- The threshold is the indicator, entry by entry. -/
theorem threshold_apply (v : Vec Ideal S1024x512 .f32) (j : S1024x512.Idx) : k0_pay3 (F := Ideal) v j = pos (v j) := by
  unfold k0_pay3
  exact indicator_apply v _ j

/-- The update at (p, q): the running sum plus the block product's entry. -/
theorem update_apply (x0 : Vec Ideal S1024x1024 .f32) (x1 x2 : Vec Ideal S512x1024 .f32) (acc : Vec Ideal S1024x512 .f32)
    (p : Fin 1024) (q : Fin 512) :
    k0_pay2 (F := Ideal) x0 x1 x2 acc (ix2 p q)
      = acc (ix2 p q) + ∑ d : Fin 1024, x0 (ix2 p d) * (pos (x1 (ix2 q d)) - pos (x2 (ix2 q d))) := by
  unfold k0_pay2
  rw [shapeCast_self]
  show acc (ix2 p q) + _ = _
  refine congrArg (acc (ix2 p q) + ·) ?_
  refine (Cert.Lib.TransposedRhsDot.matmul_zero_apply 1024 1024 512 none _ _ p q).trans ?_
  refine Finset.sum_congr rfl fun d _ => ?_
  exact congrArg₂ (fun a b : EReal => x0 (ix2 p d) * (a - b)) (indicator_apply x1 _ (ix2 q d)) (indicator_apply x2 _ (ix2 q d))

end Cert.KernelIdeal.Arith

end
-- ==== Proof.RunningSum.lean ====
/-
  The running sum the kernel keeps in its scratch buffer, point by point.

  Grid point number n has coordinates (i, j, k) = (n / 32, n / 4 mod 8, n mod 4): row block i of `x`, row block j of
  the two weight arrays, and segment k of the contraction axis. The input blocks at the point are the arrays read at
  rows 1024 i + p (of `x`) and 512 j + q (of the weights) and columns 1024 k + d. After the point the scratch holds,
  at (p, q), the contraction of row 1024 i + p of `x` against row 512 j + q of the ternary weights over the first
  1024 (k + 1) positions: at k = 0 the reset's zero plus segment 0, afterwards what the point before left plus
  segment k. Proved by induction on the point number, never by enumerating the grid.
-/
import proofs.«163154_j68719476736056_1_alg».proof.Proof.Gen.KernelIdeal.Value
import proofs.«163154_j68719476736056_1_alg».proof.Proof.Step
import proofs.«163154_j68719476736056_1_alg».proof.Proof.StepArith
import proofs.«163154_j68719476736056_1_alg».proof.Proof.TernaryThreshold

noncomputable section

open Idealize.ShloMosaic Idealize.ShloMosaic.TcCoe Idealize.ShloMosaic.ValueIdx Idealize.SL.Sem

namespace Cert.KernelIdeal.Sum

open Cert.KernelIdeal Cert.KernelIdeal.Gen Cert.TernaryThreshold

variable (m : (ℓ : Loc nD τ sig) → Buf (Elt Ideal) ℓ)

/-- The three argument arrays as the region finds them. -/
abbrev X (c : Dev nD) : Mat := V m c main_arg0
abbrev PR (c : Dev nD) : Mat := V m c main_arg1
abbrev NR (c : Dev nD) : Mat := V m c main_arg2

/-- The three input blocks at a point. -/
abbrev xblk (c : Dev nD) (t : Fin cfg0.N) : Vec Ideal S1024x1024 .f32 := iblk m c 0 t
abbrev prblk (c : Dev nD) (t : Fin cfg0.N) : Vec Ideal S512x1024 .f32 := iblk m c 1 t
abbrev nrblk (c : Dev nD) (t : Fin cfg0.N) : Vec Ideal S512x1024 .f32 := iblk m c 2 t

/-- The block indices of the four windows at point n, from the point's number. -/
theorem index_facts : ∀ t : Fin cfg0.N,
    win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 4 % 8 ∧ win0_2.index t (1 : Fin 2) = t.val % 4
    ∧ win0_3.index t (0 : Fin 2) = t.val / 32 ∧ win0_3.index t (1 : Fin 2) = t.val / 4 % 8 :=
  (by decide +kernel : ∀ t : Fin grid0.N, _)

/-- Entry (p, d) of the block of `x` at point n is `x` at row 1024 (n / 32) + p, column 1024 (n mod 4) + d. -/
theorem xblk_apply (c : Dev nD) (t : Fin cfg0.N) (p d : Fin 1024) :
    xblk m c t (ix2 p d) = at2 (X m c) (1024 * (t.val / 32) + p.val) (1024 * (t.val % 4) + d.val) := by
  have hN : t.val < 128 := lt_of_lt_of_eq t.isLt (show cfg0.N = 128 from N_0)
  have hp := p.isLt
  have hd := d.isLt
  rw [at2_of_lt _ (by omega) (by omega)]
  obtain ⟨e0, e1, -⟩ := index_facts t
  show V m c main_arg0 (((cfg0.win 0).blk t).view.emb (ix2 p d)) = V m c main_arg0 _
  refine congrArg (V m c main_arg0) ?_
  funext a; apply Fin.ext
  match a with
  | ⟨0, _⟩ => show win0_0.index t (0 : Fin 2) * 1024 + 1 * p.val = 1024 * (t.val / 32) + p.val; omega
  | ⟨1, _⟩ => show win0_0.index t (1 : Fin 2) * 1024 + 1 * d.val = 1024 * (t.val % 4) + d.val; omega

/-- Entry (q, d) of the block of the first weight array: row 512 (n / 4 mod 8) + q, column 1024 (n mod 4) + d. -/
theorem prblk_apply (c : Dev nD) (t : Fin cfg0.N) (q : Fin 512) (d : Fin 1024) :
    prblk m c t (ix2 q d) = at2 (PR m c) (512 * (t.val / 4 % 8) + q.val) (1024 * (t.val % 4) + d.val) := by
  have hN : t.val < 128 := lt_of_lt_of_eq t.isLt (show cfg0.N = 128 from N_0)
  have hq := q.isLt
  have hd := d.isLt
  rw [at2_of_lt _ (by omega) (by omega)]
  obtain ⟨-, -, e0, e1, -⟩ := index_facts t
  show V m c main_arg1 (((cfg0.win 1).blk t).view.emb (ix2 q d)) = V m c main_arg1 _
  refine congrArg (V m c main_arg1) ?_
  funext a; apply Fin.ext
  match a with
  | ⟨0, _⟩ => show win0_1.index t (0 : Fin 2) * 512 + 1 * q.val = 512 * (t.val / 4 % 8) + q.val; omega
  | ⟨1, _⟩ => show win0_1.index t (1 : Fin 2) * 1024 + 1 * d.val = 1024 * (t.val % 4) + d.val; omega

/-- The same of the second weight array. -/
theorem nrblk_apply (c : Dev nD) (t : Fin cfg0.N) (q : Fin 512) (d : Fin 1024) :
    nrblk m c t (ix2 q d) = at2 (NR m c) (512 * (t.val / 4 % 8) + q.val) (1024 * (t.val % 4) + d.val) := by
  have hN : t.val < 128 := lt_of_lt_of_eq t.isLt (show cfg0.N = 128 from N_0)
  have hq := q.isLt
  have hd := d.isLt
  rw [at2_of_lt _ (by omega) (by omega)]
  obtain ⟨-, -, -, -, e0, e1, -⟩ := index_facts t
  show V m c main_arg2 (((cfg0.win 2).blk t).view.emb (ix2 q d)) = V m c main_arg2 _
  refine congrArg (V m c main_arg2) ?_
  funext a; apply Fin.ext
  match a with
  | ⟨0, _⟩ => show win0_2.index t (0 : Fin 2) * 512 + 1 * q.val = 512 * (t.val / 4 % 8) + q.val; omega
  | ⟨1, _⟩ => show win0_2.index t (1 : Fin 2) * 1024 + 1 * d.val = 1024 * (t.val % 4) + d.val; omega

/-- What the scratch holds after point n: at (p, q) the contraction over the first 1024 (n mod 4 + 1) positions. -/
def partialAt (c : Dev nD) (n : ℕ) : Vec Ideal S1024x512 .f32 := fun y =>
  dotUpTo (X m c) (PR m c) (NR m c) (1024 * (n / 32) + (y 0).val) (512 * (n / 4 % 8) + (y 1).val) (1024 * (n % 4 + 1))

/-- ONE STEP: the update at point n of a block holding the contraction over the first 1024 (n mod 4) positions holds
    the contraction over one segment more. -/
theorem update_partial (c : Dev nD) (t : Fin cfg0.N) (acc : Vec Ideal S1024x512 .f32)
    (hacc : ∀ (p : Fin 1024) (q : Fin 512), acc (ix2 p q)
      = dotUpTo (X m c) (PR m c) (NR m c) (1024 * (t.val / 32) + p.val) (512 * (t.val / 4 % 8) + q.val) (1024 * (t.val % 4))) :
    k0_pay2 (F := Ideal) (xblk m c t) (prblk m c t) (nrblk m c t) acc = partialAt m c t.val := by
  funext y
  obtain ⟨p, q, rfl⟩ : ∃ (p : Fin 1024) (q : Fin 512), y = ix2 p q := ⟨y 0, y 1, eq_ix2 y⟩
  rw [Arith.update_apply, hacc]
  show _ = dotUpTo _ _ _ (1024 * (t.val / 32) + p.val) (512 * (t.val / 4 % 8) + q.val) (1024 * (t.val % 4 + 1))
  rw [dotUpTo_segment]
  refine congrArg (_ + ·) (Finset.sum_congr rfl fun d _ => ?_)
  rw [xblk_apply, prblk_apply, nrblk_apply]
  rfl

/-- The same, over what the point before left, at a point that is not the first of its run. -/
theorem update_prev (c : Dev nD) (t : Fin cfg0.N) (h0 : ¬t.val % 4 = 0) (prev : Vec Ideal S1024x512 .f32)
    (hprev : prev = partialAt m c (t.val - 1)) :
    k0_pay2 (F := Ideal) (xblk m c t) (prblk m c t) (nrblk m c t) prev = partialAt m c t.val := by
  subst hprev
  refine update_partial m c t _ fun p q => ?_
  show dotUpTo _ _ _ (1024 * ((t.val - 1) / 32) + p.val) (512 * ((t.val - 1) / 4 % 8) + q.val) (1024 * ((t.val - 1) % 4 + 1)) = _
  have e1 : (t.val - 1) / 32 = t.val / 32 := by omega
  have e2 : (t.val - 1) / 4 % 8 = t.val / 4 % 8 := by omega
  have e3 : (t.val - 1) % 4 + 1 = t.val % 4 := by omega
  rw [e1, e2, e3]

/-- THE RUNNING SUM: after every point the scratch holds the contraction over the segments met so far. -/
theorem scratch_eq (c : Dev nD) : ∀ (n : ℕ) (h : n < cfg0.N), (outsAt0 m c n h).2 = partialAt m c n := by
  intro n
  induction n using Nat.strong_induction_on with
  | _ n ih =>
    intro h
    have hN : n < 128 := lt_of_lt_of_eq h (show cfg0.N = 128 from N_0)
    by_cases h0 : n % 4 = 0
    · have h1 : ¬n % 4 = 3 := by omega
      rw [outsAt0_A m c ⟨n, h⟩ h0 h1]
      dsimp only
      refine (Step.acc_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
        (xblk m c ⟨n, h⟩) (prblk m c ⟨n, h⟩) (nrblk m c ⟨n, h⟩)).trans ?_
      refine update_partial m c ⟨n, h⟩ _ fun p q => ?_
      rw [Arith.zero_apply]
      show 0 = dotUpTo _ _ _ _ _ (1024 * (n % 4))
      rw [h0]
      exact (dotUpTo_zero _ _ _ _ _).symm
    · have hlt : n - 1 < cfg0.N := Nat.lt_of_le_of_lt (Nat.sub_le _ _) h
      have hprev := ih (n - 1) (by omega) hlt
      by_cases h1 : n % 4 = 3
      · rw [outsAt0_C m c ⟨n, h⟩ h0 h1]
        dsimp only
        refine (Step.acc_last (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) ((hcond0_1 ⟨n, h⟩).mpr h1)
          (xblk m c ⟨n, h⟩) (prblk m c ⟨n, h⟩) (nrblk m c ⟨n, h⟩) (outsAt0 m c (n - 1) hlt).2).trans ?_
        exact update_prev m c ⟨n, h⟩ h0 _ hprev
      · rw [outsAt0_B m c ⟨n, h⟩ h0 h1]
        dsimp only
        refine (Step.acc_next (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) (fun hh => h0 ((hcond0_0 ⟨n, h⟩).mp hh)) (fun hh => h1 ((hcond0_1 ⟨n, h⟩).mp hh))
          (xblk m c ⟨n, h⟩) (prblk m c ⟨n, h⟩) (nrblk m c ⟨n, h⟩) (outsAt0 m c (n - 1) hlt).2).trans ?_
        exact update_prev m c ⟨n, h⟩ h0 _ hprev

end Cert.KernelIdeal.Sum

end
-- ==== Proof.KernelResult.lean ====
/-
  The kernel's result array: the thresholded product, whole.

  The output block (i, j) is written back once, at the last point of its run along the contraction axis (point
  numbers ≡ 3 mod 4); what is written is the threshold of the scratch, which by then holds the whole contraction
  (1024 · 4 = 4096 positions). Entry (p, q) of that block is entry (1024 i + p, 512 j + q) of the array, and the
  32 blocks tile the array: entry (r, s) lies in the block written at point 32 (r / 1024) + 4 (s / 512) + 3.
-/
import proofs.«163154_j68719476736056_1_alg».proof.Proof.RunningSum

noncomputable section

open Idealize.ShloMosaic Idealize.ShloMosaic.TcCoe Idealize.ShloMosaic.ValueIdx Idealize.SL.Sem
open Idealize.ShloMosaic.Pipeline (Dat)

namespace Cert.KernelIdeal.Whole

open Cert.KernelIdeal Cert.KernelIdeal.Gen Cert.KernelIdeal.Sum Cert.TernaryThreshold

variable (m : (ℓ : Loc nD τ sig) → Buf (Elt Ideal) ℓ) (ρ : Dev nD → PrngReg)

/-- The threshold of the completed running sum at block entry `j` is the thresholded product at the array entry
    `i` the block's entry sits at. -/
theorem threshold_entry (c : Dev nD) (n : ℕ) (h3 : n % 4 = 3) (j : S1024x512.Idx) (i : S4096x4096.Idx)
    (hi0 : (i 0).val = 1024 * (n / 32) + (j 0).val) (hi1 : (i 1).val = 512 * (n / 4 % 8) + (j 1).val) :
    k0_pay3 (F := Ideal) (partialAt m c n) j = out (X m c) (PR m c) (NR m c) i := by
  rw [Arith.threshold_apply]
  show pos (dotUpTo _ _ _ (1024 * (n / 32) + (j 0).val) (512 * (n / 4 % 8) + (j 1).val) (1024 * (n % 4 + 1)))
    = pos (dotUpTo _ _ _ (i 0).val (i 1).val 4096)
  rw [hi0, hi1, h3]

/-- WHAT A WRITING POINT WRITES BACK is its block of the thresholded product. -/
theorem flushed_eq (c : Dev nD) (t : Fin cfg0.N) (hf : (cfg0.win 3).flush t = true) :
    (dats m 0 c).flushed 3 t = ((cfg0.win 3).blk t).view.read (Elt Ideal) (out (X m c) (PR m c) (NR m c)) := by
  have h1 : t.val % 4 = 3 := (flush0_3 t).mp hf
  have h0 : ¬t.val % 4 = 0 := by omega
  have hlt : t.val - 1 < cfg0.N := Nat.lt_of_le_of_lt (Nat.sub_le _ _) t.isLt
  rw [Value.flushed3_C m c t h0 h1]
  have hout := (Step.out_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1)
    (xblk m c t) (prblk m c t) (nrblk m c t) (outsAt0 m c (t.val - 1) hlt).2).trans
    (congrArg (k0_pay3 (F := Ideal)) (update_prev m c t h0 _ (scratch_eq m c (t.val - 1) hlt)))
  obtain ⟨-, -, -, -, -, -, e0, e1⟩ := index_facts t
  funext j
  refine (congrFun hout j).trans ?_
  refine threshold_entry m c t.val h1 j _ ?_ ?_
  · show win0_3.index t (0 : Fin 2) * 1024 + 1 * (j 0).val = _
    omega
  · show win0_3.index t (1 : Fin 2) * 512 + 1 * (j 1).val = _
    omega

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- Every entry of the array is in the block some writing point writes. -/
theorem cover (i : S4096x4096.Idx) : ∃ t : Fin cfg0.N, (cfg0.win 3).flush t = true ∧ i ∈ ((cfg0.win 3).blk t).view.set := by
  have hi0 : (i 0).val < 4096 := idx2_lt0 i
  have hi1 : (i 1).val < 4096 := idx2_lt1 i
  have hN : cfg0.N = 128 := N_0
  have hlt : 32 * ((i 0).val / 1024) + 4 * ((i 1).val / 512) + 3 < cfg0.N := by rw [hN]; omega
  refine ⟨⟨_, hlt⟩, (flush0_3 _).mpr (by show (32 * ((i 0).val / 1024) + 4 * ((i 1).val / 512) + 3) % 4 = 3; omega), ?_⟩
  rw [mem_blk]
  obtain ⟨-, -, -, -, -, -, e0, e1⟩ := index_facts ⟨_, hlt⟩
  intro a
  match a with
  | ⟨0, _⟩ =>
    show win0_3.index ⟨_, hlt⟩ (0 : Fin 2) * 1024 ≤ (i 0).val ∧ (i 0).val < win0_3.index ⟨_, hlt⟩ (0 : Fin 2) * 1024 + 1024
    rw [e0]; dsimp only; omega
  | ⟨1, _⟩ =>
    show win0_3.index ⟨_, hlt⟩ (1 : Fin 2) * 512 ≤ (i 1).val ∧ (i 1).val < win0_3.index ⟨_, hlt⟩ (1 : Fin 2) * 512 + 512
    rw [e1]; dsimp only; omega

/-- THE ARRAY after the run is the thresholded product of the argument arrays. -/
theorem final (c : Dev nD) : (dats m 0 c).arrAt 3 cfg0.N = out (X m c) (PR m c) (NR m c) :=
  (dats m 0 c).arrAt_eq_of_cover 3 (out (X m c) (PR m c) (NR m c)) (flushed_eq m c) (cover)

/-- The kernel's run, read: the result array at the thresholded product, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceResult.lean ====
/-
  The reference's result, read entry by entry over the extended reals.

  The reference spells each binarised weight array with a straight-through term: indicator(w) + w - w. Where w is a
  real number this is the indicator; at an infinity it is not (∞ - ∞ collapses), so the arrays' finiteness is
  used here. The contraction is then the sum over the 4096 positions of x(t, d) times the ternary weight at (o, d),
  and the output is spelled the same way, indicator(y) + y - y, which is the indicator because y, a finite sum of
  products of real numbers, is real.
-/
import proofs.«163154_j68719476736056_1_alg».proof.Proof.Gen.ReferenceIdeal.Read
import proofs.«163154_j68719476736056_1_alg».proof.Proof.TernaryThreshold

noncomputable section

open Idealize.ShloMosaic Idealize.ShloMosaic.ValueIdx

namespace Cert.ReferenceIdeal.Result

open Cert.ReferenceIdeal Cert.ReferenceIdeal.Gen Cert.ReferenceIdeal.Read Cert.TernaryThreshold

/-- The first binarised weight array, with its straight-through term, is the indicator where the array is real. -/
theorem weight_pr (x1 : Mat) (h1 : Real x1) (i : S4096x4096.Idx) : val_main_v4 (F := Ideal) x1 i = pos (x1 i) := by
  rw [val_main_v4_apply, val_main_v3_apply, val_main_v2_apply, val_main_v1_apply, val_main_v0_apply, val_main_cst_apply]
  exact add_sub_real (pos (x1 i)) (h1 i)

/-- The same of the second. -/
theorem weight_nr (x2 : Mat) (h2 : Real x2) (i : S4096x4096.Idx) : val_main_v9 (F := Ideal) x2 i = pos (x2 i) := by
  rw [val_main_v9_apply, val_main_v8_apply, val_main_v7_apply, val_main_v6_apply, val_main_v5_apply, val_main_cst_0_apply]
  exact add_sub_real (pos (x2 i)) (h2 i)

/-- The contraction at (t, o): the whole sum over the last axis. -/
theorem product (x0 x1 x2 : Mat) (h1 : Real x1) (h2 : Real x2) (i : S4096x4096.Idx) :
    val_main_v11 (F := Ideal) x0 x1 x2 i = dotUpTo x0 x1 x2 (i 0).val (i 1).val 4096 := by
  rw [val_main_v11_apply, dotUpTo_full x0 x1 x2 (i 0) (i 1)]
  refine Finset.sum_congr rfl fun k _ => ?_
  have el : lidx_main_v11 i k = ix2 (i 0) k := funext fun a => Fin.ext (by match a with | ⟨0, _⟩ => rfl | ⟨1, _⟩ => rfl)
  have er : ridx_main_v11 i k = ix2 (i 1) k := funext fun a => Fin.ext (by match a with | ⟨0, _⟩ => rfl | ⟨1, _⟩ => rfl)
  rw [val_main_v10_apply, weight_pr x1 h1, weight_nr x2 h2, el, er]
  rfl

/-- THE REFERENCE'S RESULT is the thresholded product, when the three arrays are real. -/
theorem result_eq (x0 x1 x2 : Mat) (h0 : Real x0) (h1 : Real x1) (h2 : Real x2) :
    val_main_v16 (F := Ideal) x0 x1 x2 = out x0 x1 x2 := by
  funext i
  rw [val_main_v16_apply, val_main_v15_apply, val_main_v14_apply, val_main_v13_apply, val_main_v12_apply, val_main_cst_1_apply,
    product x0 x1 x2 h1 h2]
  exact add_sub_real _ (dotUpTo_real h0 x1 x2 _ _ _)

end Cert.ReferenceIdeal.Result

end
-- ==== Proof.Finite.lean ====
/-
  From the precondition to real entries.

  The precondition is one bit: the conjunction, over the three arrays, of "every entry's absolute value is below
  +∞". An extended real whose absolute value (the greater of z and -z) is below +∞ is neither infinity, so it is
  a real number.
-/
import proofs.«163154_j68719476736056_1_alg».proof.Pre_finite_inputs
import proofs.«163154_j68719476736056_1_alg».proof.Proof.TernaryThreshold
import Idealize.ShloMosaic.Lib.ReduceAll
import Idealize.ShloMosaic.PureOps.Ideal.Laws

noncomputable section

open Idealize.ShloMosaic Idealize.ShloMosaic.ValueIdx

namespace Cert.Pre_finite_inputs.Finite

open Cert.Pre_finite_inputs Cert.TernaryThreshold

variable [Facts]
open Facts

instance : Subsingleton S_.Idx := ⟨fun a b => funext fun d => d.elim0⟩

/-- An extended real whose absolute value compares below the +∞ word is a real number. -/
theorem real_of_bit (z : EReal)
    (h : FloatOps.cmpf (F := Ideal) (φ := .f32) .olt (FloatOps.hostAbsf (F := Ideal) (φ := .f32) z) (FloatOps.ofBits (F := Ideal) .f32 0x7F800000#32) = 1#1) :
    ∃ r : ℝ, z = (r : EReal) := by
  have htop : Ideal.ofBits .f32 0x7F800000#32 = ⊤ := by simp [Ideal.ofBits, Ideal.ieee]
  have h' : Ideal.cmp .olt (max z (-z)) (Ideal.ofBits .f32 0x7F800000#32) = 1#1 := h
  rw [htop] at h'
  induction z using EReal.rec with
  | bot => simp [Ideal.cmp] at h'
  | coe r => exact ⟨r, rfl⟩
  | top => simp [Ideal.cmp] at h'

/-- One array's "all entries finite" bit, read back. -/
theorem real_of_all (a : Mat)
    (h : Host.reduce IntOp.andi (cmpf .olt (Host.absf (F := Ideal) a) (broadcastInDim S4096x4096 ![] bcast_S_S4096x4096 (constant (F := Ideal) S_ .f32 0x7F800000#32)))
      (constantI S_ 1 1#1) reducesTo_S4096x4096_S_d0_1 h_S_ ix0 = 1#1) : Real a := fun i =>
  real_of_bit (a i) (Host.reduce_andi_all _ _ reducesTo_S4096x4096_S_d0_1 h_S_ ix0 h i)

/-- THE PRECONDITION says the three arrays are real. -/
theorem real_of_pre (a0 a1 a2 : Mat) (h : fn (F := Ideal) a0 a1 a2 = fun _ => 1#1) : Real a0 ∧ Real a1 ∧ Real a2 := by
  have h' := congrFun h ix0
  dsimp only [fn] at h'
  obtain ⟨h01, h2⟩ := IntOp.andi_eq_one.1 h'
  obtain ⟨h0, h1⟩ := IntOp.andi_eq_one.1 h01
  exact ⟨real_of_all a0 h0, real_of_all a1 h1, real_of_all a2 h2⟩

end Cert.Pre_finite_inputs.Finite

end
-- ==== Proof.lean ====
/- A ternary-weight matrix product followed by a threshold: the kernel against its jnp reference.

   Both programs take x : f32[4096, 4096] and two weight arrays pr, nr : f32[4096, 4096], form the ternary weight
   W(o, d) = [pr(o, d) > 0] - [nr(o, d) > 0] in {-1, 0, 1}, contract y(t, o) = Σ_d x(t, d) · W(o, d) over the 4096
   positions of the last axes, and return [y(t, o) > 0].

   The kernel walks a 4 x 8 x 4 grid: output block (i, j) of 1024 x 512 entries, and along the third axis the four
   segments of 1024 positions of the contraction. It keeps the running sum in a scratch block: reset to zero at a
   run's first segment, one block product added per segment, and at the last segment the threshold of the completed
   sum stored into the output block, which is written back there. Over the extended reals narrowing to bfloat16 is
   the identity, a block product into a zero accumulator is the plain sum of products, and addition is commutative
   and associative, so after segment k the scratch holds the contraction over the first 1024 (k + 1) positions
   (Proof/RunningSum.lean, by induction on the grid point), after the last one the whole contraction, and the 32
   output blocks tile the result array (Proof/KernelResult.lean).

   The reference writes each indicator with a straight-through term, [w > 0] + w - w, for the weights and for the
   output alike. That is the indicator exactly where w is a real number: the precondition makes the three arrays
   real (Proof/Finite.lean), and y, a finite sum of products of real numbers, is real too
   (Proof/ReferenceResult.lean). So both results are the one function `TernaryThreshold.out` of the arguments
   (Proof/TernaryThreshold.lean).

   The three frames are the generated ones (the reference's is its generated run with the result dropped); the ideal
   pass rewrote nothing, so the kernel's idealization is its own text read over the extended reals. -/
import proofs.«163154_j68719476736056_1_alg».proof.Defs
import proofs.«163154_j68719476736056_1_alg».proof.Proof.Gen.Kernel
import proofs.«163154_j68719476736056_1_alg».proof.Proof.Gen.Kernel.Skeleton
import proofs.«163154_j68719476736056_1_alg».proof.Proof.Gen.Kernel.Launch
import proofs.«163154_j68719476736056_1_alg».proof.Proof.Gen.Kernel.Points
import proofs.«163154_j68719476736056_1_alg».proof.Proof.Gen.Kernel.Frame
import proofs.«163154_j68719476736056_1_alg».proof.Proof.Gen.KernelIdeal
import proofs.«163154_j68719476736056_1_alg».proof.Proof.Gen.KernelIdeal.Skeleton
import proofs.«163154_j68719476736056_1_alg».proof.Proof.Gen.KernelIdeal.Launch
import proofs.«163154_j68719476736056_1_alg».proof.Proof.Gen.KernelIdeal.Points
import proofs.«163154_j68719476736056_1_alg».proof.Proof.Gen.KernelIdeal.Frame
import proofs.«163154_j68719476736056_1_alg».proof.Proof.Gen.ReferenceIdeal
import proofs.«163154_j68719476736056_1_alg».proof.Proof.Gen.Pre_finite_inputs
import proofs.«163154_j68719476736056_1_alg».proof.Proof.Gen.KernelIdeal.Value
import proofs.«163154_j68719476736056_1_alg».proof.Proof.Gen.ReferenceIdeal.Run
import proofs.«163154_j68719476736056_1_alg».proof.Proof.Gen.ReferenceIdeal.Read
import proofs.«163154_j68719476736056_1_alg».proof.Proof.KernelResult
import proofs.«163154_j68719476736056_1_alg».proof.Proof.ReferenceResult
import proofs.«163154_j68719476736056_1_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the thresholded product of its arguments, and the
    reference's, from arguments that agree and are real by the precondition, at the same function of them. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2⟩ := Cert.Pre_finite_inputs.Finite.real_of_pre _ _ _ (hpre c)
  rw [Cert.ReferenceIdeal.Read.val_main_v16_eq, (hagree c).1, (hagree c).2.1, (hagree c).2.2]
  exact Cert.ReferenceIdeal.Result.result_eq _ _ _ r0 r1 r2

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
